-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x64 : Shape := ⟨3, ![4, 1024, 64]⟩
abbrev S_ : Shape := ⟨0, ![]⟩

class Facts : Prop where
  bcast_S_S4x1024x64 : S_.BroadcastsInDim S4x1024x64 (![] : Fin 0 → Fin S4x1024x64.rank)
  reducesTo_S4x1024x64_S_d0_1_2 : S4x1024x64.ReducesTo [0, 1, 2] S_
  h_S_ : 0 < S_.numel

variable [Facts]

def fn {F : FTy → Type} [FloatOps F] (main_arg0 : FVec F S4x1024x64 .f32) (main_arg1 : FVec F S4x1024x64 .f32) : IVec S_ 1 :=
  let main_v0 : FVec F S4x1024x64 .f32 := Host.absf main_arg0
  let main_cst : FVec F S_ .f32 := constant S_ .f32 0x7F800000#32
  let main_v1 : FVec F S4x1024x64 .f32 := broadcastInDim S4x1024x64 ![] bcast_S_S4x1024x64 main_cst
  let main_v2 : IVec S4x1024x64 1 := cmpf .olt main_v0 main_v1
  let main_c : IVec S_ 1 := constantI S_ 1 1#1
  let main_v3 : IVec S_ 1 := (fun x v => Host.reduce IntOp.andi x v reducesTo_S4x1024x64_S_d0_1_2 h_S_) main_v2 main_c
  let main_v4 : FVec F S4x1024x64 .f32 := Host.absf main_arg1
  let main_cst_0 : FVec F S_ .f32 := constant S_ .f32 0x7F800000#32
  let main_v5 : FVec F S4x1024x64 .f32 := broadcastInDim S4x1024x64 ![] bcast_S_S4x1024x64 main_cst_0
  let main_v6 : IVec S4x1024x64 1 := cmpf .olt main_v4 main_v5
  let main_c_1 : IVec S_ 1 := constantI S_ 1 1#1
  let main_v7 : IVec S_ 1 := (fun x v => Host.reduce IntOp.andi x v reducesTo_S4x1024x64_S_d0_1_2 h_S_) main_v6 main_c_1
  let main_v8 : IVec S_ 1 := andi main_v3 main_v7
  main_v8
-- ==== Kernel.lean ====
abbrev S4x1024x64 : Shape := ⟨3, ![4, 1024, 64]⟩
abbrev S4x1024x1024 : Shape := ⟨3, ![4, 1024, 1024]⟩
abbrev S1x128x64 : Shape := ⟨3, ![1, 128, 64]⟩
abbrev S1x256x64 : Shape := ⟨3, ![1, 256, 64]⟩
abbrev S1x128x256 : Shape := ⟨3, ![1, 128, 256]⟩
abbrev S128x64 : Shape := ⟨2, ![128, 64]⟩
abbrev S256x64 : Shape := ⟨2, ![256, 64]⟩
abbrev S64x128 : Shape := ⟨2, ![64, 128]⟩
abbrev S64x256 : Shape := ⟨2, ![64, 256]⟩
abbrev S64x128x1 : Shape := ⟨3, ![64, 128, 1]⟩
abbrev S64x1x256 : Shape := ⟨3, ![64, 1, 256]⟩
abbrev S64x128x256 : Shape := ⟨3, ![64, 128, 256]⟩
abbrev S128x256 : Shape := ⟨2, ![128, 256]⟩

abbrev nBuf : Space → Nat
  | .hbm => 3
  | .vmem => 6
  | .smem => 0
  | _ => 0

abbrev bufTy : (tb : Table) → Fin (tcTables nBuf tb) → BufTy
  | .hbm, ⟨0, _⟩ => ⟨S4x1024x64, .f32⟩
  | .hbm, ⟨1, _⟩ => ⟨S4x1024x64, .f32⟩
  | .hbm, ⟨2, _⟩ => ⟨S4x1024x1024, .f32⟩
  | .local _ .vmem, ⟨0, _⟩ => ⟨S1x128x64, .f32⟩
  | .local _ .vmem, ⟨1, _⟩ => ⟨S1x128x64, .f32⟩
  | .local _ .vmem, ⟨2, _⟩ => ⟨S1x256x64, .f32⟩
  | .local _ .vmem, ⟨3, _⟩ => ⟨S1x256x64, .f32⟩
  | .local _ .vmem, ⟨4, _⟩ => ⟨S1x128x256, .f32⟩
  | .local _ .vmem, ⟨5, _⟩ => ⟨S1x128x256, .f32⟩
  | _, _ => ⟨S4x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  transposes_S128x64_p1_0_S64x128 : S128x64.Transposes [1, 0] S64x128
  transposes_S256x64_p1_0_S64x256 : S256x64.Transposes [1, 0] S64x256
  shapeCasts_S64x128_S64x128x1 : S64x128.ShapeCasts S64x128x1
  shapeCasts_S64x256_S64x1x256 : S64x256.ShapeCasts S64x1x256
  broadcasts_S64x128x1_S64x128x256 : S64x128x1.Broadcasts S64x128x256
  broadcasts_S64x1x256_S64x128x256 : S64x1x256.Broadcasts S64x128x256
  reduces_S64x128x256_S128x256 : S64x128x256.Reduces [0] S128x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S1x128x256 : S128x256.ShapeCasts S1x128x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64.size a ≤ S4x1024x64.size a
  hwx0_0 : ∀ i : grid0.Coords, EltTy.bits .f32 = 32 ∨ (Rect.block (s := S4x1024x64) S1x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x64.size a ≤ S4x1024x64.size a
  hwx0_1 : ∀ i : grid0.Coords, EltTy.bits .f32 = 32 ∨ (Rect.block (s := S4x1024x64) S1x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x256.size a ≤ S4x1024x1024.size a
  hwx0_2 : ∀ i : grid0.Coords, EltTy.bits .f32 = 32 ∨ (Rect.block (s := S4x1024x1024) S1x128x256.size (cc0_transform_2 i) (hinb0_2 i)).WholeWords (EltTy.packing .f32)

variable [Facts₀]

abbrev win0_0 : Pipeline.Window sig grid0 :=
  Pipeline.Window.ofSpec (Memref.whole main_arg0) S1x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x1024x64 : Shape := ⟨3, ![4, 1024, 64]⟩
abbrev S4x1024x1x64 : Shape := ⟨4, ![4, 1024, 1, 64]⟩
abbrev S4x1x1024x64 : Shape := ⟨4, ![4, 1, 1024, 64]⟩
abbrev S4x1024x1024x64 : Shape := ⟨4, ![4, 1024, 1024, 64]⟩
abbrev S_ : Shape := ⟨0, ![]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4x1024x64, .f32⟩
  | .hbm, ⟨1, _⟩ => ⟨S4x1024x64, .f32⟩
  | .hbm, ⟨2, _⟩ => ⟨S4x1024x1x64, .f32⟩
  | .hbm, ⟨3, _⟩ => ⟨S4x1x1024x64, .f32⟩
  | .hbm, ⟨4, _⟩ => ⟨S4x1024x1024x64, .f32⟩
  | .hbm, ⟨5, _⟩ => ⟨S4x1024x1024x64, .f32⟩
  | .hbm, ⟨6, _⟩ => ⟨S4x1024x1024x64, .f32⟩
  | .hbm, ⟨7, _⟩ => ⟨S4x1024x1024x64, .f32⟩
  | .hbm, ⟨8, _⟩ => ⟨S_, .f32⟩
  | .hbm, ⟨9, _⟩ => ⟨S4x1024x1024, .f32⟩
  | .hbm, ⟨10, _⟩ => ⟨S4x1024x1024, .f32⟩
  | _, _ => ⟨S4x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S4x1024x64_S4x1024x1x64_0_1_3 : S4x1024x64.BroadcastsInDim S4x1024x1x64 (![0, 1, 3] : Fin 3 → Fin S4x1024x1x64.rank)
  bcast_S4x1024x64_S4x1x1024x64_0_2_3 : S4x1024x64.BroadcastsInDim S4x1x1024x64 (![0, 2, 3] : Fin 3 → Fin S4x1x1024x64.rank)
  bcast_S4x1024x1x64_S4x1024x1024x64_0_1_2_3 : S4x1024x1x64.BroadcastsInDim S4x1024x1024x64 (![0, 1, 2, 3] : Fin 4 → Fin S4x1024x1024x64.rank)
  bcast_S4x1x1024x64_S4x1024x1024x64_0_1_2_3 : S4x1x1024x64.BroadcastsInDim S4x1024x1024x64 (![0, 1, 2, 3] : Fin 4 → Fin S4x1024x1024x64.rank)
  reducesTo_S4x1024x1024x64_S4x1024x1024_d3 : S4x1024x1024x64.ReducesTo [3] S4x1024x1024
  h_S_ : 0 < S_.numel

variable [Facts₀]

class Facts : Prop extends Facts₀ where

variable [Facts]
-- ==== Proof.BlockEntry.lean ====
/-
  One staged output block, entry by entry.

  The body takes a block `L` of 128 left rows and a block `R` of 256 right rows, each row of 64 features. It
  transposes both so that the feature axis leads, spreads the left rows along a new trailing axis and the right rows
  along a new middle axis, subtracts, takes absolute values, sums over the leading (feature) axis and subtracts the
  sum from zero. So entry `(p, q)` of the block it stores is `-(∑ k, |L p k - R q k|)`: the negated L1 distance
  between left row `p` and right row `q`. On the extended reals `|x|` is `max x (-x)`, the lane sum with a zero
  accumulator is the plain finite sum, and `0 - s = -s`.
-/
import proofs.«143701_j38706245272206_1_alg».proof.Proof.Gen.KernelIdeal.Value
import Idealize.ShloMosaic.PureOps.Ideal.Laws
import Idealize.ShloMosaic.Lib.ValueIdx
import Idealize.ShloMosaic.Lib.ValueLayout
import Idealize.ShloMosaic.Lib.Pipeline.Value

noncomputable section

namespace Cert.Sad.Block

open Idealize.ShloMosaic Idealize.ShloMosaic.ValueIdx Cert.KernelIdeal Cert.KernelIdeal.Gen

/-- The left operand of the difference at `(k, p, q)` is feature `k` of left row `p`, whatever `q` is:
    the broadcast forgets `q`, the cast drops the unit axis, the transpose swaps `(k, p)` back to `(p, k)`. -/
theorem left_entry (L : FVec Ideal S1x128x64 .f32) (k : Fin 64) (p : Fin 128) (q : Fin 256) :
    broadcastTo S64x128x256 (shapeCast S64x128x1 (transpose S64x128 [1, 0] (shapeCast S128x64 L shapeCasts_S1x128x64_S128x64) transposes_S128x64_p1_0_S64x128) shapeCasts_S64x128_S64x128x1) broadcasts_S64x128x1_S64x128x256 (ix3 k p q)
      = L (ix3 (0 : Fin 1) p k) := by
  refine (broadcastTo_apply _ broadcasts_S64x128x1_S64x128x256 (ix3 k p q) (ix3 k p (0 : Fin 1)) ?_).trans ?_
  · intro a
    match a with
    | ⟨0, _⟩ => show k.val = if (64 : Nat) = 1 then 0 else k.val; rw [if_neg (by decide)]
    | ⟨1, _⟩ => show p.val = if (128 : Nat) = 1 then 0 else p.val; rw [if_neg (by decide)]
    | ⟨2, _⟩ => show 0 = if (1 : Nat) = 1 then 0 else q.val; rw [if_pos rfl]
  refine (shapeCast_apply _ shapeCasts_S64x128_S64x128x1 (ix3 k p (0 : Fin 1)) (ix2 k p) ?_).trans ?_
  · rw [Shape.rowMajor_val_two, Shape.rowMajor_val_three]
    show k.val * 128 + p.val = (k.val * 128 + p.val) * 1 + 0
    omega
  refine (transpose_ix2_apply _ transposes_S128x64_p1_0_S64x128 k p).trans ?_
  exact shapeCast_1ab_ab_apply L shapeCasts_S1x128x64_S128x64 p k

/-- The right operand at `(k, p, q)` is feature `k` of right row `q`, whatever `p` is. -/
theorem right_entry (R : FVec Ideal S1x256x64 .f32) (k : Fin 64) (p : Fin 128) (q : Fin 256) :
    broadcastTo S64x128x256 (shapeCast S64x1x256 (transpose S64x256 [1, 0] (shapeCast S256x64 R shapeCasts_S1x256x64_S256x64) transposes_S256x64_p1_0_S64x256) shapeCasts_S64x256_S64x1x256) broadcasts_S64x1x256_S64x128x256 (ix3 k p q)
      = R (ix3 (0 : Fin 1) q k) := by
  refine (broadcastTo_apply _ broadcasts_S64x1x256_S64x128x256 (ix3 k p q) (ix3 k (0 : Fin 1) q) ?_).trans ?_
  · intro a
    match a with
    | ⟨0, _⟩ => show k.val = if (64 : Nat) = 1 then 0 else k.val; rw [if_neg (by decide)]
    | ⟨1, _⟩ => show 0 = if (1 : Nat) = 1 then 0 else p.val; rw [if_pos rfl]
    | ⟨2, _⟩ => show q.val = if (256 : Nat) = 1 then 0 else q.val; rw [if_neg (by decide)]
  refine (shapeCast_apply _ shapeCasts_S64x256_S64x1x256 (ix3 k (0 : Fin 1) q) (ix2 k q) ?_).trans ?_
  · rw [Shape.rowMajor_val_two, Shape.rowMajor_val_three]
    show k.val * 256 + q.val = (k.val * 1 + 0) * 256 + q.val
    omega
  refine (transpose_ix2_apply _ transposes_S256x64_p1_0_S64x256 k q).trans ?_
  exact shapeCast_1ab_ab_apply R shapeCasts_S1x256x64_S256x64 q k

/-- The index of the summed array that lies over `(p, q)` at feature `k` is `(k, p, q)`: the reduced axis leads. -/
theorem lift_feature (p : Fin 128) (q : Fin 256) (k : Fin 64) :
    (reduces_S64x128x256_S128x256).lift (ix2 p q) k = ix3 k p q :=
  funext fun a => Fin.ext (by
    match a with
    | ⟨0, _⟩ => rfl
    | ⟨1, _⟩ => rfl
    | ⟨2, _⟩ => rfl)

/-- ENTRY `(p, q)` OF THE STORED BLOCK is the negated sum over the 64 features of `|L p k - R q k|`. -/
theorem entry (L : Vec Ideal S1x128x64 .f32) (R : Vec Ideal S1x256x64 .f32) (u : Fin 1) (p : Fin 128) (q : Fin 256) :
    Cert.KernelIdeal.Value.E2 (F := Ideal) L R (ix3 u p q)
      = -(∑ k : Fin 64, max (L (ix3 (0 : Fin 1) p k) - R (ix3 (0 : Fin 1) q k)) (-(L (ix3 (0 : Fin 1) p k) - R (ix3 (0 : Fin 1) q k)))) := by
  have hj : Cert.KernelIdeal.Value.ix2_0 (ix3 u p q) = ix2 p q :=
    funext fun a => Fin.ext (by match a with | ⟨0, _⟩ => rfl | ⟨1, _⟩ => rfl)
  show (Ideal.ofBits .f32 0x00000000#32 : EReal) - _ = _
  rw [hj, Ideal.ofBits_zero_f32, zero_sub]
  refine congrArg Neg.neg ?_
  refine (Ideal.multiReduction_add_single _ 0x00000000#32 reduces_S64x128x256_S128x256 (.inl rfl) rfl (ix2 p q)).trans ?_
  refine Finset.sum_congr rfl fun (k : Fin 64) _ => ?_
  rw [lift_feature p q k]
  show max (_ - _) (-(_ - _)) = _
  rw [left_entry L k p q, right_entry R k p q]

end Cert.Sad.Block

end
-- ==== Proof.SadSpec.lean ====
/-
  The function both programs compute.

  For two stacks of row vectors `l, r : [4, 1024, 64]` the result is the `[4, 1024, 1024]` array whose entry
  `(b, n, j)` is the negated L1 distance between row `n` of `l` and row `j` of `r` in batch `b`:

      sad l r (b, n, j) = -(∑ k < 64, |l (b, n, k) - r (b, j, k)|),

  read on the extended reals, where `|x| = max x (-x)`. A finite sum on the extended reals does not depend on the
  order or the grouping of its terms, so no finiteness of the inputs is needed to compare two ways of computing it.
-/
import Idealize.ShloMosaic.PureOps.Ideal

noncomputable section

open scoped BigOperators

namespace Cert.Sad

open Idealize.ShloMosaic

/-- Where entry `i = (b, n, j)` of the result reads the left array at feature `k`: `(b, n, k)`. -/
abbrev leftIdx (i : (⟨3, ![4, 1024, 1024]⟩ : Shape).Idx) (k : Fin 64) : (⟨3, ![4, 1024, 64]⟩ : Shape).Idx := fun a => match a with
  | ⟨0, _⟩ => ⟨(i 0).val, (i 0).isLt⟩
  | ⟨1, _⟩ => ⟨(i 1).val, (i 1).isLt⟩
  | ⟨2, _⟩ => ⟨k.val, k.isLt⟩

/-- Where entry `i = (b, n, j)` of the result reads the right array at feature `k`: `(b, j, k)`. -/
abbrev rightIdx (i : (⟨3, ![4, 1024, 1024]⟩ : Shape).Idx) (k : Fin 64) : (⟨3, ![4, 1024, 64]⟩ : Shape).Idx := fun a => match a with
  | ⟨0, _⟩ => ⟨(i 0).val, (i 0).isLt⟩
  | ⟨1, _⟩ => ⟨(i 2).val, (i 2).isLt⟩
  | ⟨2, _⟩ => ⟨k.val, k.isLt⟩

/-- The negated sum of absolute differences of every left row against every right row of the same batch. -/
def sad (l r : (⟨3, ![4, 1024, 64]⟩ : Shape).Idx → EReal) : (⟨3, ![4, 1024, 1024]⟩ : Shape).Idx → EReal :=
  fun i => -(∑ k : Fin 64, max (l (leftIdx i k) - r (rightIdx i k)) (-(l (leftIdx i k) - r (rightIdx i k))))

end Cert.Sad

end
-- ==== Proof.KernelArray.lean ====
/-
  From the staged blocks to the whole output array.

  The grid has 4 × 8 × 4 points `(b, n, j)`. At a point the left window stages rows `128 n … 128 n + 127` of batch `b`
  of the left array, the right window rows `256 j … 256 j + 255` of batch `b` of the right array, and the output
  window writes back the `128 × 256` block of batch `b` with corner `(128 n, 256 j)`. Entry `(p, q)` of the block the
  body stores is the negated L1 distance of staged left row `p` and staged right row `q`, that is of left row
  `128 n + p` and right row `256 j + q`: the block is `sad` of the two arrays read through the output block's rectangle.
  The 128 output blocks tile the `[4, 1024, 1024]` array (row `r` lies in row-block `r / 128`, column `s` in
  column-block `s / 256`), so after the run the array is `sad` of the arguments.
-/
import proofs.«143701_j38706245272206_1_alg».proof.Proof.Gen.KernelIdeal.Value
import proofs.«143701_j38706245272206_1_alg».proof.Proof.BlockEntry
import proofs.«143701_j38706245272206_1_alg».proof.Proof.SadSpec
import Idealize.ShloMosaic.Lib.Pipeline.Value
import Idealize.ShloMosaic.Lib.ValueIdx

noncomputable section

namespace Cert.Sad.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin3 : (![0, 0, 0] : Fin 3 → Nat) = fun _ => 0 := funext fun a => by fin_cases a <;> rfl

/-- The block index maps over the grid: the left window moves with the output on the batch and row-block axes, the
    right window on the batch axis and, on its row axis, with the output's column-block axis; neither moves along the
    feature axis. -/
theorem index_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = win0_2.index t (2 : Fin 3)
    ∧ win0_1.index t (2 : Fin 3) = 0 :=
  (by decide +kernel : ∀ t : Fin grid0.N, _)

/-- Every block position `(b, n, j)` of the output array is some grid point's. -/
theorem index_onto : ∀ (b : Fin 4) (n : Fin 8) (j : Fin 4), ∃ t : Fin cfg0.N, win0_2.index t = ![b.val, n.val, j.val] :=
  (by decide +kernel : ∀ (b : Fin 4) (n : Fin 8) (j : Fin 4), ∃ t : Fin grid0.N, win0_2.index t = ![b.val, n.val, j.val])

/-- WHAT POINT `t` WRITES BACK is block `t` of `sad` of the argument arrays. -/
theorem flushed_eq (c : Dev nD) (t : Fin cfg0.N) :
    (dats m 0 c).flushed 2 t = ((cfg0.win 2).blk t).view.read (Elt Ideal) (sad (V m c main_arg0) (V m c main_arg1)) := by
  rw [Cert.KernelIdeal.Value.flushed2]
  unfold out0_2
  simp only [View.ld_unit_zero (S := S1x128x64) origin3, View.ld_unit_zero (S := S1x256x64) origin3]
  obtain ⟨e0, e1, e2, e3, e4, e5⟩ := index_facts t
  refine funext fun (j : S1x128x256.Idx) => ?_
  obtain ⟨u, p, q, rfl⟩ : ∃ (u : Fin 1) (p : Fin 128) (q : Fin 256), j = ix3 u p q := ⟨j 0, j 1, j 2, eq_ix3 j⟩
  show View.canon [(⟨r0_2, k0_pay1 (iblk m c 0 t) (iblk m c 1 t)⟩ : View.Piece (Elt Ideal) S1x128x256 .f32)] (ix3 u p q)
    = sad (V m c main_arg0) (V m c main_arg1) (((cfg0.win 2).blk t).view.emb (ix3 u p q))
  refine (Cert.KernelIdeal.Value.canon2_eq (F := Ideal) (iblk m c 0 t) (iblk m c 1 t) (ix3 u p q)).trans ?_
  refine (Cert.Sad.Block.entry (iblk m c 0 t) (iblk m c 1 t) u p q).trans ?_
  refine congrArg Neg.neg (Finset.sum_congr rfl fun (k : Fin 64) _ => ?_)
  have hu : u.val = 0 := by have := u.isLt; omega
  have hl : iblk m c 0 t (ix3 (0 : Fin 1) p k) = V m c main_arg0 (leftIdx (((cfg0.win 2).blk t).view.emb (ix3 u p q)) k) := by
    show V m c main_arg0 (((cfg0.win 0).blk t).view.emb (ix3 (0 : Fin 1) p k)) = _
    refine congrArg (V m c main_arg0) (funext fun a => Fin.ext ?_)
    match a with
    | ⟨0, _⟩ => show win0_0.index t (0 : Fin 3) * 1 + 1 * 0 = win0_2.index t (0 : Fin 3) * 1 + 1 * u.val; omega
    | ⟨1, _⟩ => show win0_0.index t (1 : Fin 3) * 128 + 1 * p.val = win0_2.index t (1 : Fin 3) * 128 + 1 * p.val; omega
    | ⟨2, _⟩ => show win0_0.index t (2 : Fin 3) * 64 + 1 * k.val = k.val; omega
  have hr : iblk m c 1 t (ix3 (0 : Fin 1) q k) = V m c main_arg1 (rightIdx (((cfg0.win 2).blk t).view.emb (ix3 u p q)) k) := by
    show V m c main_arg1 (((cfg0.win 1).blk t).view.emb (ix3 (0 : Fin 1) q k)) = _
    refine congrArg (V m c main_arg1) (funext fun a => Fin.ext ?_)
    match a with
    | ⟨0, _⟩ => show win0_1.index t (0 : Fin 3) * 1 + 1 * 0 = win0_2.index t (0 : Fin 3) * 1 + 1 * u.val; omega
    | ⟨1, _⟩ => show win0_1.index t (1 : Fin 3) * 256 + 1 * q.val = win0_2.index t (2 : Fin 3) * 256 + 1 * q.val; omega
    | ⟨2, _⟩ => show win0_1.index t (2 : Fin 3) * 64 + 1 * k.val = k.val; omega
  rw [hl, hr]

/-- An index of the output array is in point `t`'s block iff each coordinate is in the block's range on its axis. -/
theorem mem_blk (t : Fin cfg0.N) (i : S4x1024x1024.Idx) :
    i ∈ ((cfg0.win 2).blk t).view.set ↔ ∀ a : Fin 3, win0_2.index t a * S1x128x256.size a ≤ (i a).val ∧ (i a).val < win0_2.index t a * S1x128x256.size a + S1x128x256.size a := by
  show i ∈ ((View.whole main_v0).slice (win0_2.rect t)).set ↔ _
  rw [View.set_slice_whole, Rect.mem_set_unit]
  exact Iff.rfl

/-- THE BLOCKS COVER THE ARRAY: index `(b, r, s)` lies in the block at position `(b, r / 128, s / 256)`. -/
theorem cover (i : S4x1024x1024.Idx) : ∃ t : Fin cfg0.N, (cfg0.win 2).flush t = true ∧ i ∈ ((cfg0.win 2).blk t).view.set := by
  have h0 : (i 0).val < 4 := (i 0).isLt
  have h1 : (i 1).val < 1024 := (i 1).isLt
  have h2 : (i 2).val < 1024 := (i 2).isLt
  obtain ⟨t, ht⟩ := index_onto ⟨(i 0).val, h0⟩ ⟨(i 1).val / 128, by omega⟩ ⟨(i 2).val / 256, by omega⟩
  have q0 : win0_2.index t (0 : Fin 3) = (i 0).val := congrFun ht 0
  have q1 : win0_2.index t (1 : Fin 3) = (i 1).val / 128 := congrFun ht 1
  have q2 : win0_2.index t (2 : Fin 3) = (i 2).val / 256 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 256 ≤ (i 2).val ∧ (i 2).val < win0_2.index t (2 : Fin 3) * 256 + 256; omega

/-- THE OUTPUT ARRAY after the run is `sad` of the argument arrays. -/
theorem final (c : Dev nD) :
    (dats m 0 c).arrAt 2 cfg0.N = sad (m ((c : Thread nD τ).loc main_arg0)) (m ((c : Thread nD τ).loc main_arg1)) :=
  (dats m 0 c).arrAt_eq_of_cover 2 (sad (V m c main_arg0) (V m c main_arg1)) (fun t _ => flushed_eq m c t) cover

/-- The kernel's run: it terminates with the result array at `sad` of the arguments, and the arguments unchanged. -/
theorem run : θ_run defs (onTc (τ := τ) (main (F := Ideal))) ⟨m, fun _ => 0, ρ⟩ fun r => ∀ c : Dev nD,
      r.2.mem ((c : Thread nD τ).loc main_v0) = sad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.Sad.Array

end
-- ==== Proof.RefIsSad.lean ====
/-
  The reference computes `sad`.

  The reference spreads the left array along a new third axis and the right array along a new second axis, so that
  entry `(b, n, j, k)` of their difference is `l (b, n, k) - r (b, j, k)`; it takes absolute values, sums over the last
  axis starting from zero, and negates. Reading each stage at an index gives `-(0 + ∑ k, |l (b, n, k) - r (b, j, k)|)`,
  which is `sad l r (b, n, j)` once the zero is dropped.
-/
import proofs.«143701_j38706245272206_1_alg».proof.Proof.Gen.ReferenceIdeal.Read
import proofs.«143701_j38706245272206_1_alg».proof.Proof.SadSpec
import Idealize.ShloMosaic.PureOps.Ideal.Laws

noncomputable section

namespace Cert.Sad.Ref

open Idealize.ShloMosaic Cert.ReferenceIdeal Cert.ReferenceIdeal.Gen Cert.ReferenceIdeal.Read

/-- Through the two broadcasts, entry `(b, n, j, k)` of the spread left array is the left array at `(b, n, k)`. -/
theorem left_idx (i : S4x1024x1024.Idx) (k : Fin 64) : idx_main_v0 (idx_main_v2 (idx_main_v6 i k)) = leftIdx i k :=
  funext fun a => Fin.ext (by match a with | ⟨0, _⟩ => rfl | ⟨1, _⟩ => rfl | ⟨2, _⟩ => rfl)

/-- Through the two broadcasts, entry `(b, n, j, k)` of the spread right array is the right array at `(b, j, k)`. -/
theorem right_idx (i : S4x1024x1024.Idx) (k : Fin 64) : idx_main_v1 (idx_main_v3 (idx_main_v6 i k)) = rightIdx i k :=
  funext fun a => Fin.ext (by match a with | ⟨0, _⟩ => rfl | ⟨1, _⟩ => rfl | ⟨2, _⟩ => rfl)

/-- THE REFERENCE'S RESULT, as a function of its two arguments, is `sad`. -/
theorem result_eq (x0 x1 : (⟨S4x1024x64, .f32⟩ : BufTy).Contents (Elt Ideal)) :
    val_main_v7 (F := Ideal) x0 x1 = sad x0 x1 := by
  funext i
  rw [val_main_v7_apply, val_main_v6_apply]
  simp only [val_main_v5_apply, val_main_v4_apply, val_main_v2_apply, val_main_v3_apply, val_main_v0_apply,
    val_main_v1_apply, val_main_cst_apply, left_idx, right_idx, Ideal.hostNegf_def, Ideal.negf_def, Ideal.hostAbsf_def,
    Ideal.absf_def, Ideal.subf_def, Ideal.ofBits_def, Ideal.ofBits_zero_f32, zero_add]
  rfl

end Cert.Sad.Ref

end
-- ==== Proof.lean ====
/- The negated sum of absolute differences of every row of one array against every row of another, as a tiled kernel
   and as a whole-array reference: the two compute the same array over the extended reals.

   For `lhs, rhs : [4, 1024, 64]` both programs return the `[4, 1024, 1024]` array
       out (b, n, j) = -(∑ k < 64, |lhs (b, n, k) - rhs (b, j, k)|)                    (`Cert.Sad.sad`, Proof/SadSpec.lean).
   The reference spreads both arrays to `[4, 1024, 1024, 64]`, subtracts, takes absolute values, sums the last axis from
   zero and negates (Proof/RefIsSad.lean reads it stage by stage). The kernel walks a 4 × 8 × 4 grid; at point `(b, n, j)` it
   holds 128 left rows and 256 right rows of batch `b`, moves the feature axis to the front, spreads the two blocks
   against each other, sums `|difference|` over the leading feature axis and stores `0 - sum` as the `128 × 256` block
   with corner `(128 n, 256 j)` (Proof/BlockEntry.lean: one entry of the stored block; Proof/KernelArray.lean: the blocks
   are `sad` read through their rectangles, and they tile the array). The only laws between the two sides are that a
   finite sum does not depend on how its terms are laid out, `0 + s = s` and `0 - s = -s`; all hold on the extended
   reals at infinite entries too, so the finiteness precondition is never opened. No operation of the kernel is
   rewritten by the idealization, so the preservation conjunct has nothing to state. -/
import proofs.«143701_j38706245272206_1_alg».proof.Defs
import proofs.«143701_j38706245272206_1_alg».proof.Proof.Gen.Kernel
import proofs.«143701_j38706245272206_1_alg».proof.Proof.Gen.Kernel.Skeleton
import proofs.«143701_j38706245272206_1_alg».proof.Proof.Gen.Kernel.Launch
import proofs.«143701_j38706245272206_1_alg».proof.Proof.Gen.Kernel.Points
import proofs.«143701_j38706245272206_1_alg».proof.Proof.Gen.Kernel.Frame
import proofs.«143701_j38706245272206_1_alg».proof.Proof.Gen.KernelIdeal
import proofs.«143701_j38706245272206_1_alg».proof.Proof.Gen.KernelIdeal.Skeleton
import proofs.«143701_j38706245272206_1_alg».proof.Proof.Gen.KernelIdeal.Launch
import proofs.«143701_j38706245272206_1_alg».proof.Proof.Gen.KernelIdeal.Points
import proofs.«143701_j38706245272206_1_alg».proof.Proof.Gen.KernelIdeal.Frame
import proofs.«143701_j38706245272206_1_alg».proof.Proof.Gen.ReferenceIdeal
import proofs.«143701_j38706245272206_1_alg».proof.Proof.Gen.Pre_finite_inputs
import proofs.«143701_j38706245272206_1_alg».proof.Proof.Gen.KernelIdeal.Value
import proofs.«143701_j38706245272206_1_alg».proof.Proof.Gen.ReferenceIdeal.Run
import proofs.«143701_j38706245272206_1_alg».proof.Proof.Gen.ReferenceIdeal.Read
import Idealize.ShloMosaic.Adequacy
import Idealize.ShloMosaic.Init
import proofs.«143701_j38706245272206_1_alg».proof.Proof.KernelArray
import proofs.«143701_j38706245272206_1_alg».proof.Proof.RefIsSad

noncomputable section

namespace Cert.Proof

open Idealize.ShloMosaic Idealize.ShloMosaic.TcCoe Idealize.SL.Sem

/-- The word-level kernel runs to the end and leaves its two arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the two arguments, the kernel's output array and the reference's result are both
    `sad` of those arguments. -/
theorem algebraic : Cert.algebraic_KernelIdeal_ReferenceIdeal := by
  intro m ρ m' ρ' _ hagree
  refine ⟨_, Cert.Sad.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.Sad.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
